-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x1 : Shape := ⟨2, ![600000, 1]⟩
abbrev S128x128 : Shape := ⟨2, ![128, 128]⟩
abbrev S128 : Shape := ⟨1, ![128]⟩
abbrev S2x600000 : Shape := ⟨2, ![2, 600000]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x1 : S_.BroadcastsInDim S600000x1 (![] : Fin 0 → Fin S600000x1.rank)
  reducesTo_S600000x1_S_d0_1 : S600000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x600000_S1x600000_1_0 : S2x600000.Slices ![1, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part1 {F : FTy → Type} [FloatOps F] (main_arg4 : IVec S2x600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : IVec S1x600000 32 := (extractStridedSlice S1x600000 ![1, 0] · slices_S2x600000_S1x600000_1_0) main_arg4
  let main_v20 : IVec S600000 32 := shapeCast S600000 main_v19 shapeCasts_S1x600000_S600000
  let main_c_6 : IVec S_ 32 := constantI S_ 32 0#32
  let main_v21 : IVec S600000 32 := broadcastInDim S600000 ![] bcast_S_S600000 main_c_6
  let main_v22 : IVec S600000 1 := cmpi .sge main_v20 main_v21
  let main_v23 : IVec S1x600000 32 := (extractStridedSlice S1x600000 ![1, 0] · slices_S2x600000_S1x600000_1_0) main_arg4
  let main_v24 : IVec S600000 32 := shapeCast S600000 main_v23 shapeCasts_S1x600000_S600000
  let main_c_7 : IVec S_ 32 := constantI S_ 32 50000#32
  let main_v25 : IVec S600000 32 := broadcastInDim S600000 ![] bcast_S_S600000 main_c_7
  let main_v26 : IVec S600000 1 := cmpi .slt main_v24 main_v25
  let main_v27 : IVec S600000 1 := andi main_v22 main_v26
  let main_c_8 : IVec S_ 1 := constantI S_ 1 1#1
  let main_v28 : IVec S_ 1 := (fun x v => Host.reduce IntOp.andi x v reducesTo_S600000_S_d0 h_S_) main_v27 main_c_8
  let main_v29 : IVec S_ 1 := andi main_v18 main_v28
  main_v29

def fn {F : FTy → Type} [FloatOps F] (main_arg0 : FVec F S50000x128 .f32) (main_arg1 : FVec F S600000x1 .f32) (main_arg2 : FVec F S128x128 .f32) (main_arg3 : FVec F S128 .f32) (main_arg4 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x1 .f32 := Host.absf main_arg1
  let main_cst_0 : FVec F S_ .f32 := constant S_ .f32 0x7F800000#32
  let main_v5 : FVec F S600000x1 .f32 := broadcastInDim S600000x1 ![] bcast_S_S600000x1 main_cst_0
  let main_v6 : IVec S600000x1 1 := cmpf .olt main_v4 main_v5
  let main_c_1 : IVec S_ 1 := constantI S_ 1 1#1
  let main_v7 : IVec S_ 1 := (fun x v => Host.reduce IntOp.andi x v reducesTo_S600000x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S50000x128 : Shape := ⟨2, ![50000, 128]⟩
abbrev S600000x1 : Shape := ⟨2, ![600000, 1]⟩
abbrev S128x128 : Shape := ⟨2, ![128, 128]⟩
abbrev S128 : Shape := ⟨1, ![128]⟩
abbrev S2x600000 : Shape := ⟨2, ![2, 600000]⟩
abbrev S1x600000 : Shape := ⟨2, ![1, 600000]⟩
abbrev S600000 : Shape := ⟨1, ![600000]⟩
abbrev S600000x128 : Shape := ⟨2, ![600000, 128]⟩
abbrev S_ : Shape := ⟨0, ![]⟩
abbrev S5000x128 : Shape := ⟨2, ![5000, 128]⟩
abbrev S1x128 : Shape := ⟨2, ![1, 128]⟩

abbrev nBuf : Space → Nat
  | .hbm => 19
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S600000x1, .f32⟩
  | .hbm, ⟨2, _⟩ => ⟨S128x128, .f32⟩
  | .hbm, ⟨3, _⟩ => ⟨S128, .f32⟩
  | .hbm, ⟨4, _⟩ => ⟨S2x600000, .i32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S600000x1, .i32⟩
  | .hbm, ⟨10, _⟩ => ⟨S600000x128, .f32⟩
  | .hbm, ⟨11, _⟩ => ⟨S600000x128, .f32⟩
  | .hbm, ⟨12, _⟩ => ⟨S600000x128, .f32⟩
  | .hbm, ⟨13, _⟩ => ⟨S_, .f32⟩
  | .hbm, ⟨14, _⟩ => ⟨S50000x128, .f32⟩
  | .hbm, ⟨15, _⟩ => ⟨S600000x1, .i32⟩
  | .hbm, ⟨16, _⟩ => ⟨S50000x128, .f32⟩
  | .hbm, ⟨17, _⟩ => ⟨S128x128, .bf16⟩
  | .hbm, ⟨18, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x600000_S1x600000_1_0 : S2x600000.Slices ![1, 0] S1x600000
  shapeCasts_S1x600000_S600000 : S1x600000.ShapeCasts S600000
  slices_S2x600000_S1x600000_0_0 : S2x600000.Slices ![0, 0] S1x600000
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000x1 : Shape := ⟨2, ![600000, 1]⟩
abbrev S128x128 : Shape := ⟨2, ![128, 128]⟩
abbrev S128 : Shape := ⟨1, ![128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x128 : Shape := ⟨2, ![600000, 128]⟩
abbrev S1x128 : Shape := ⟨2, ![1, 128]⟩

abbrev nBuf : Space → Nat
  | .hbm => 28
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x1, .f32⟩
  | .hbm, ⟨2, _⟩ => ⟨S128x128, .f32⟩
  | .hbm, ⟨3, _⟩ => ⟨S128, .f32⟩
  | .hbm, ⟨4, _⟩ => ⟨S2x600000, .i32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S600000x128, .f32⟩
  | .hbm, ⟨19, _⟩ => ⟨S600000x128, .f32⟩
  | .hbm, ⟨20, _⟩ => ⟨S_, .f32⟩
  | .hbm, ⟨21, _⟩ => ⟨S50000x128, .f32⟩
  | .hbm, ⟨22, _⟩ => ⟨S600000x1, .i32⟩
  | .hbm, ⟨23, _⟩ => ⟨S50000x128, .f32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  slices_S2x600000_S1x600000_1_0 : S2x600000.Slices ![1, 0] S1x600000
  shapeCasts_S1x600000_S600000 : S1x600000.ShapeCasts S600000
  slices_S2x600000_S1x600000_0_0 : S2x600000.Slices ![0, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.SenderRange.lean ====
/-
  The precondition read back: every sender index is non-negative.

  The precondition ends in the conjunct "every entry of row 1 of the edge index (the senders) is at least 0 and
  below 50000", printed as a reduction by "and" of the lane-wise conjunction of two signed comparisons. When the
  whole predicate is 1, the last conjunct is 1, so the reduction is 1, so every lane is 1, so the first
  comparison holds at every edge: the sender is not below zero as a signed word.
  That is all the value proof needs of the range: the reference wraps a negative index by adding 50000 and the
  kernel does not, and on a sender that is not negative the wrap changes nothing.
-/
import proofs.«411870_j58720792871766_2_alg».proof.Pre_finite_inputs
import Idealize.ShloMosaic.Lib.ReduceAll
import Idealize.ShloMosaic.Lib.ValueIdx

noncomputable section

namespace Cert.SenderRange

open Idealize.ShloMosaic Cert.Pre_finite_inputs

variable [Cert.Pre_finite_inputs.Facts]
open Cert.Pre_finite_inputs.Facts

/-- A signed word that is at least zero is not below zero. -/
theorem slt_zero_of_sge (x : BitVec 32) (h : IntOp.cmpi .sge x 0#32 = 1#1) : IntOp.cmpi .slt x 0#32 = 0#1 := by
  have h1 := IntOp.cmpi_sge.1 h
  have h2 : ¬ (IntOp.cmpi .slt x 0#32 = 1#1) := fun h' => by
    have h3 := IntOp.cmpi_slt.1 h'
    omega
  generalize IntOp.cmpi .slt x 0#32 = b at h2 ⊢
  revert b
  decide

instance : Subsingleton S_.Idx := ⟨fun a b => funext fun d => d.elim0⟩

/-- The senders: row 1 of the edge index, as a vector of 600000 words. -/
def senders (x4 : IVec S2x600000 32) : IVec S600000 32 :=
  shapeCast S600000 (extractStridedSlice S1x600000 ![1, 0] x4 slices_S2x600000_S1x600000_1_0) shapeCasts_S1x600000_S600000

/-- Under the precondition no sender is below zero. -/
theorem sender_not_neg {F : FTy → Type} [FloatOps F] (x0 : FVec F S50000x128 .f32) (x1 : FVec F S600000x1 .f32)
    (x2 : FVec F S128x128 .f32) (x3 : FVec F S128 .f32) (x4 : IVec S2x600000 32)
    (h : Cert.Pre_finite_inputs.fn (F := F) x0 x1 x2 x3 x4 = fun _ => 1#1) (e : S600000.Idx) :
    IntOp.cmpi .slt (senders x4 e) 0#32 = 0#1 := by
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 e
  have h3 := (IntOp.andi_eq_one.1 h2).1
  exact slt_zero_of_sge _ h3

end Cert.SenderRange

end
-- ==== Proof.Spec.lean ====
/-
  The dense update that ends both programs, as one function on the extended reals.

  Both programs first aggregate, per receiver node, the sender rows scaled by the edge weights; call that
  [50000, 128] array C. The result is then C · W + b: entry (n, j) is the sum over the 128 feature columns k of
  C[n, k] · W[k, j], plus the bias b[j]. The kernel computes it tile by tile (5000 rows at a time) with the weights
  passed through a change of float format, the reference in one matrix product; on the extended reals a change
  of format is the identity and a tile's rows are rows of the whole product, so both are this function.
-/
import Idealize.ShloMosaic.PureOps.Ideal
import Idealize.ShloMosaic.Lib.ValueIdx

noncomputable section

namespace Cert.Spec

open Idealize.ShloMosaic Idealize.ShloMosaic.ValueIdx

/-- Node features after aggregation, and the result: 50000 nodes by 128 features. -/
abbrev SN : Shape := ⟨2, ![50000, 128]⟩
/-- The weight matrix: 128 by 128. -/
abbrev SW : Shape := ⟨2, ![128, 128]⟩
/-- The bias: 128. -/
abbrev SB : Shape := ⟨1, ![128]⟩

/-- Entry (n, j) of C · W + b: the sum over k of C[n, k] · W[k, j], plus b[j]. -/
def linear (C : SN.Idx → EReal) (W : SW.Idx → EReal) (b : SB.Idx → EReal) : SN.Idx → EReal :=
  fun i => (∑ k : Fin 128, C (ix2 (i 0) k) * W (ix2 k (i 1))) + b (ix1 (i 1))

theorem linear_apply (C : SN.Idx → EReal) (W : SW.Idx → EReal) (b : SB.Idx → EReal) (n : Fin 50000) (j : Fin 128) :
    linear C W b (ix2 n j) = (∑ k : Fin 128, C (ix2 n k) * W (ix2 k j)) + b (ix1 j) := rfl

end Cert.Spec

end
-- ==== Proof.RefValue.lean ====
/-
  The reference, read at an index.

  The reference first normalises each sender index the way array indexing does (a negative index has 50000 added),
  then gathers the sender rows, scales each by its edge weight, adds them up per receiver node into the array
  called C here, and ends with C · W + b. Where no sender is negative the normalisation leaves the senders as they
  are, so C is the aggregate of the rows gathered at the senders themselves (`aggregate`), and the result at
  (n, j) is the sum over k of C[n, k] · W[k, j], plus b[j]: the function `Spec.linear`.
  The gather and the accumulating scatter are never opened: both programs apply the same two operations to the
  same operands, so they stay as they are printed.
-/
import proofs.«411870_j58720792871766_2_alg».proof.Proof.Gen.ReferenceIdeal.Read
import proofs.«411870_j58720792871766_2_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The aggregated messages when the senders are used as they are: for every edge the sender's row of the features,
    scaled by the edge's weight, added into the receiver's row of an array of zeros. -/
def aggregate (x0 : FVec Ideal S50000x128 .f32) (x1 : FVec Ideal S600000x1 .f32) (x4 : IVec S2x600000 32) : FVec Ideal S50000x128 .f32 :=
  Host.scatterAdd scatter_S50000x128_S600000x1_S600000x128_1_0_0_1 (val_main_v13 (F := Ideal)) (val_main_v14 (F := Ideal) x4)
    (mulf (val_main_v11 (F := Ideal) x1)
      (Host.gather gather_S50000x128_S600000x1_S600000x128_1_0_n_n_0_1_1128 x0
        (broadcastInDim S600000x1 ![0] bcast_S600000_S600000x1_0 (val_main_v1 (F := Ideal) x4))))

/-- Where no sender is below zero, adding 50000 to the negative ones changes nothing. -/
theorem wrap_id (x4 : IVec S2x600000 32) (h : ∀ e, IntOp.cmpi .slt (val_main_v1 (F := Ideal) x4 e) 0#32 = 0#1) :
    val_main_v8 (F := Ideal) x4 = val_main_v1 (F := Ideal) x4 := by
  funext e
  rw [val_main_v8_apply, val_main_v5_apply, val_main_v4_apply, val_main_c_apply, h e, ValueIdx.select_zero]

/-- Then the reference's aggregate is the aggregate over the senders as they are. -/
theorem v15_eq (x0 : FVec Ideal S50000x128 .f32) (x1 : FVec Ideal S600000x1 .f32) (x4 : IVec S2x600000 32)
    (hs : val_main_v8 (F := Ideal) x4 = val_main_v1 (F := Ideal) x4) :
    val_main_v15 (F := Ideal) x0 x1 x4 = aggregate x0 x1 x4 := by
  unfold val_main_v15 val_main_v12 val_main_v10 val_main_v9 aggregate
  rw [hs]

/-- The reference's result is C · W + b over that aggregate. -/
theorem result_eq (x0 : FVec Ideal S50000x128 .f32) (x1 : FVec Ideal S600000x1 .f32) (x2 : FVec Ideal S128x128 .f32)
    (x3 : FVec Ideal S128 .f32) (x4 : IVec S2x600000 32)
    (hs : val_main_v8 (F := Ideal) x4 = val_main_v1 (F := Ideal) x4) :
    val_main_v19 (F := Ideal) x0 x1 x2 x3 x4 = Cert.Spec.linear (aggregate x0 x1 x4) x2 x3 := by
  funext i
  obtain ⟨n, j, rfl⟩ : ∃ (n : Fin 50000) (j : Fin 128), i = ix2 n j := ⟨i 0, i 1, eq_ix2 i⟩
  have el : ∀ k : Fin 128, lidx_main_v16 (ix2 n j) k = ix2 n k := fun k =>
    funext fun a => Fin.ext (by match a with | ⟨0, _⟩ => rfl | ⟨1, _⟩ => rfl)
  have er : ∀ k : Fin 128, ridx_main_v16 (ix2 n j) k = ix2 k j := fun k =>
    funext fun a => Fin.ext (by match a with | ⟨0, _⟩ => rfl | ⟨1, _⟩ => rfl)
  have eb : idx_main_v17 (idx_main_v18 (ix2 n j)) = ix1 j :=
    funext fun a => Fin.ext (by match a with | ⟨0, _⟩ => rfl)
  rw [val_main_v19_apply, val_main_v16_apply, val_main_v18_apply, val_main_v17_apply, v15_eq x0 x1 x4 hs,
    Cert.Spec.linear_apply]
  simp only [el, er, eb, Ideal.addf_def]

end Cert.ReferenceIdeal.RefValue

end
-- ==== Proof.TilePayload.lean ====
/-
  One tile of the kernel's body, read at an entry.

  At a grid point the body loads a tile of 5000 rows of the aggregated features, the whole weight matrix (already
  in the narrower float format) and the bias; it narrows the tile, multiplies it by the weights into an accumulator
  of zeros, lays the bias along every row and adds. On the extended reals narrowing is the identity and the zero
  accumulator adds nothing, so entry (p, q) of what it stores is the sum over k of tile[p, k] · weights[k, q],
  plus bias[q].
-/
import proofs.«411870_j58720792871766_2_alg».proof.Proof.Gen.KernelIdeal.Skeleton
import proofs.«411870_j58720792871766_2_alg».proof.Proof.Spec
import Idealize.ShloMosaic.Lib.Pipeline.Value
import Idealize.ShloMosaic.Lib.ValueIdx
import Idealize.ShloMosaic.PureOps.Ideal.Laws

noncomputable section

namespace Cert.KernelIdeal.TilePayload

open Cert.KernelIdeal Cert.KernelIdeal.Gen
open Idealize.ShloMosaic Idealize.ShloMosaic.TcCoe Idealize.ShloMosaic.ValueIdx

/-- The left operand's row coordinate is the result's row. -/
theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the summation index. -/
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the summation index. -/
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the result's column. -/
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The tile's product into a zero accumulator, at (p, q): the sum over k of a[p, k] · w[k, q]. -/
theorem tile_matmul_apply (a : FVec Ideal S5000x128 .bf16) (w : FVec Ideal S128x128 .bf16) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  show FloatOps.matmul dot_S5000x128_S128x128_S5000x128_1_0_0_1_n_n none a w (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_tile_0 _ _).trans hk
    | ⟨1, _⟩ => exact rhs_tile_1 _ _)
  rw [el, er]

/-- The bias laid along every row of the tile, at (p, q): bias[q]. -/
theorem bias_rows_apply {α : Type} (v : S128.Idx → α) (p : Fin 5000) (q : Fin 128) :
    broadcastTo S5000x128 (shapeCast S1x128 v shapeCasts_S128_S1x128) broadcasts_S1x128_S5000x128 (ix2 p q) = v (ix1 q) := by
  have e1 := broadcastTo_apply (shapeCast S1x128 v shapeCasts_S128_S1x128) broadcasts_S1x128_S5000x128 (ix2 p q) (ix2 (0 : Fin 1) q) (by
    intro a
    match a with
    | ⟨0, _⟩ => rfl
    | ⟨1, _⟩ => rfl)
  have e2 := shapeCast_apply v shapeCasts_S128_S1x128 (ix2 (0 : Fin 1) q) (ix1 q) (by
    rw [Shape.rowMajor_val_two, Shape.rowMajor_val_one]; show q.val = 0 * 128 + q.val; omega)
  exact e1.trans e2

/-- What the body stores, at (p, q) of the tile: the sum over k of tile[p, k] · weights[k, q], plus bias[q]. -/
theorem pay_apply (x0 : Vec Ideal S5000x128 .f32) (x1 : Vec Ideal S128x128 .bf16) (x2 : Vec Ideal S128 .f32) (p : Fin 5000) (q : Fin 128) :
    k0_pay1 (F := Ideal) x0 x1 x2 (ix2 p q) = (∑ k : Fin 128, x0 (ix2 p k) * x1 (ix2 k q)) + x2 (ix1 q) := by
  unfold k0_pay1
  rw [ValueIdx.addf_apply, shapeCast_self, shapeCast_self, tile_matmul_apply, bias_rows_apply]
  rfl

/-- A tile's entry is the whole product's entry: if row p of the tile is row n of C, column q of the weights tile
    is column j of W and entry q of the bias tile is entry j of b, then the tile's sum at (p, q), plus its bias,
    is entry (n, j) of C · W + b. -/
theorem tile_entry (C : S50000x128.Idx → EReal) (W : S128x128.Idx → EReal) (B : S128.Idx → EReal)
    (a : S5000x128.Idx → EReal) (w : S128x128.Idx → EReal) (b : S128.Idx → EReal)
    (i : S50000x128.Idx) (p : Fin 5000) (q : Fin 128)
    (ha : ∀ k : Fin 128, a (ix2 p k) = C (ix2 (i 0) k))
    (hw : ∀ k : Fin 128, w (ix2 k q) = W (ix2 k (i 1)))
    (hb : b (ix1 q) = B (ix1 (i 1))) :
    (∑ k : Fin 128, a (ix2 p k) * w (ix2 k q)) + b (ix1 q) = Cert.Spec.linear C W B i := by
  unfold Cert.Spec.linear
  rw [hb]
  exact congrArg (fun s : EReal => s + B (ix1 (i 1))) (Finset.sum_congr rfl fun k _ => by rw [ha k, hw k])

end Cert.KernelIdeal.TilePayload

end
-- ==== Proof.RegionEntry.lean ====
/-
  What the kernel's one region finds in the arrays it stages.

  Before the region the program slices the senders and the receivers out of the edge index, gathers the sender
  rows of the features, scales each by its edge weight, adds them up per receiver into an array of zeros, and
  narrows the weight matrix. So the region's first operand is that aggregate of the launch arguments
  (`aggregate`), its second the weights through a change of float format — the weights themselves on the extended
  reals —, and its third the bias as launched.
-/
import proofs.«411870_j58720792871766_2_alg».proof.Proof.Gen.KernelIdeal.Frame
import Idealize.ShloMosaic.Lib.StableHlo.Run
import Idealize.ShloMosaic.Lib.ValueIdx

noncomputable section

namespace Cert.KernelIdeal.RegionEntry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The aggregated messages: for every edge the sender's row of the features (the senders are row 1 of the edge
    index, used as they are), scaled by the edge's weight, added into the receiver's row (row 0 of the edge index)
    of an array of zeros. -/
def aggregate (x0 : FVec Ideal S50000x128 .f32) (x1 : FVec Ideal S600000x1 .f32) (x4 : IVec S2x600000 32) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0
      (shapeCast S600000 (extractStridedSlice S1x600000 ![0, 0] x4 slices_S2x600000_S1x600000_0_0) shapeCasts_S1x600000_S600000))
    (mulf (broadcastInDim S600000x128 ![0, 1] bcast_S600000x1_S600000x128_0_1 x1)
      (Host.gather gather_S50000x128_S600000x1_S600000x128_1_0_n_n_0_1_1128 x0
        (broadcastInDim S600000x1 ![0] bcast_S600000_S600000x1_0
          (shapeCast S600000 (extractStridedSlice S1x600000 ![1, 0] x4 slices_S2x600000_S1x600000_1_0) shapeCasts_S1x600000_S600000))))

/-- The region's first operand is the aggregate of the launch arguments. -/
theorem V_aggregate (c : Dev nD) :
    (V m c main_v9 : S50000x128.Idx → EReal)
      = aggregate (m ((c : Thread nD τ).loc main_arg0)) (m ((c : Thread nD τ).loc main_arg1)) (m ((c : Thread nD τ).loc main_arg4)) := by
  dsimp only [V]
  simp only [hostOps0, hostOps0_1, hostOps0_2, List.flatten_cons, List.flatten_nil, List.append_nil, List.cons_append, List.nil_append]
  after_results
  rfl

/-- Its second operand is the weight matrix through a change of float format: the weights themselves. -/
theorem V_weights (c : Dev nD) :
    (V m c main_v10 : S128x128.Idx → EReal) = m ((c : Thread nD τ).loc main_arg2) := by
  dsimp only [V]
  simp only [hostOps0, hostOps0_1, hostOps0_2, List.flatten_cons, List.flatten_nil, List.append_nil, List.cons_append, List.nil_append]
  after_results
  rfl

end Cert.KernelIdeal.RegionEntry

end
-- ==== Proof.KernelValue.lean ====
/-
  The kernel's result array, as one function of the launch arguments.

  The region walks ten grid points; point t stages rows 5000·t … 5000·t + 4999 of the aggregated features (all
  128 columns), the whole weight matrix and the whole bias, and writes back the same rows of the result. What it
  writes at (p, q) of its tile is the sum over k of tile[p, k] · weights[k, q], plus bias[q] (`TilePayload.pay_apply`);
  row p of tile t is row 5000·t + p of the aggregate, so the tile written is exactly rows 5000·t … of C · W + b
  (`Spec.linear`) — a row of a matrix product depends on that row of the left factor only. The ten tiles are
  disjoint and fill the 50000 rows (row r is in tile r / 5000), so after the run the result array is C · W + b,
  with C, W and b what the region found: the aggregate, the weights and the bias of the launch (`RegionEntry`).
-/
import proofs.«411870_j58720792871766_2_alg».proof.Proof.Gen.KernelIdeal.Value
import proofs.«411870_j58720792871766_2_alg».proof.Proof.Spec
import proofs.«411870_j58720792871766_2_alg».proof.Proof.TilePayload
import proofs.«411870_j58720792871766_2_alg».proof.Proof.RegionEntry

set_option maxRecDepth 16384

noncomputable section

namespace Cert.KernelIdeal.KernelValue

open Cert.KernelIdeal Cert.KernelIdeal.Gen Cert.KernelIdeal.RegionEntry
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The printed index maps over the ten points: the features' tile moves down with the result's tile, one tile of
    5000 rows a point; the weights and the bias stay at their one block; no map moves along the columns. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 9 :=
  (by decide +kernel : ∀ t : Fin grid0.N, _)

/-- Every one of the ten row tiles is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- WHAT POINT t WRITES BACK is its tile of C · W + b, with C, W, b the arrays the region found. -/
theorem flushed_eq (c : Dev nD) (t : Fin cfg0.N) :
    (dats m 0 c).flushed 3 t
      = ((cfg0.win 3).blk t).view.read (Elt Ideal) (Cert.Spec.linear (V m c main_v9) (V m c main_v10) (V m c main_arg3)) := by
  rw [Cert.KernelIdeal.Value.flushed3]
  unfold out0_3
  rw [View.canon_unit_zero hz2]
  simp only [View.ld_unit_zero (S := S5000x128) hz2, View.ld_unit_zero (S := S128x128) hz2, View.ld_unit_zero (S := S128) hz1]
  obtain ⟨e00, e01, e10, e11, e20, e31, e30⟩ := idx_facts t
  funext j
  obtain ⟨p, q, rfl⟩ : ∃ (p : Fin 5000) (q : Fin 128), j = ix2 p q := ⟨j 0, j 1, eq_ix2 j⟩
  show k0_pay1 (F := Ideal) (iblk m c 0 t) (iblk m c 1 t) (iblk m c 2 t) (ix2 p q)
    = Cert.Spec.linear (V m c main_v9) (V m c main_v10) (V m c main_arg3) (((cfg0.win 3).blk t).view.emb (ix2 p q))
  refine (Cert.KernelIdeal.TilePayload.pay_apply (iblk m c 0 t) (iblk m c 1 t) (iblk m c 2 t) p q).trans ?_
  have hp : p.val < 5000 := p.isLt
  have hq : q.val < 128 := q.isLt
  refine Cert.KernelIdeal.TilePayload.tile_entry (V m c main_v9) (V m c main_v10) (V m c main_arg3)
    (iblk m c 0 t) (iblk m c 1 t) (iblk m c 2 t) (((cfg0.win 3).blk t).view.emb (ix2 p q)) p q ?_ ?_ ?_
  · intro k
    refine congrArg (V m c main_v9) ?_
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · intro k
    refine congrArg (V m c main_v10) ?_
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  · refine congrArg (V m c main_arg3) ?_
    funext a; apply Fin.ext
    match a with
    | ⟨0, _⟩ => show win0_2.index t (0 : Fin 1) * 128 + 1 * q.val = win0_3.index t (1 : Fin 2) * 128 + 1 * q.val; omega

/-- An index of the result array is in point t's tile iff each coordinate is in the tile's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v11).slice (win0_3.rect t)).set ↔ _
  rw [View.set_slice_whole, Rect.mem_set_unit]
  exact Iff.rfl

/-- The ten tiles fill the array: row r is in the tile of point r / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE RESULT ARRAY after the run: C · W + b with C the aggregate, W the weights and b the bias of the launch. -/
theorem final (c : Dev nD) :
    (dats m 0 c).arrAt 3 cfg0.N
      = Cert.Spec.linear (aggregate (m ((c : Thread nD τ).loc main_arg0)) (m ((c : Thread nD τ).loc main_arg1)) (m ((c : Thread nD τ).loc main_arg4)))
          (m ((c : Thread nD τ).loc main_arg2)) (m ((c : Thread nD τ).loc main_arg3)) := by
  rw [← V_aggregate m c, ← V_weights m c, ← V_main_arg3 m c]
  exact (dats m 0 c).arrAt_eq_of_cover 3 _ (fun t _ => flushed_eq m c t) cover

/-- The run re-posted: the result array at that function of the arguments, the arguments unchanged. -/
theorem run : θ_run defs (onTc (τ := τ) (main (F := Ideal))) ⟨m, fun _ => 0, ρ⟩ fun r => ∀ c : Dev nD,
      r.2.mem ((c : Thread nD τ).loc main_v11)
        = Cert.Spec.linear (aggregate (m ((c : Thread nD τ).loc main_arg0)) (m ((c : Thread nD τ).loc main_arg1)) (m ((c : Thread nD τ).loc main_arg4)))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.KernelValue

end
-- ==== Proof.lean ====
/-
  Graph convolution followed by a dense update: the kernel's entry point against its jnp reference, over the
  extended reals.

  Both programs take node features x [50000, 128], one weight per edge [600000, 1], a weight matrix W [128, 128],
  a bias b [128] and an edge index [2, 600000] (row 0 the receivers, row 1 the senders). Both gather the sender's
  row of x for every edge, scale it by the edge's weight and add it into the receiver's row of an array of zeros
  (the aggregate C), and both end with C · W + b. They differ in two places.
  (1) The reference indexes x with the senders the way array indexing does: a negative sender has 50000 added
      first. The kernel hands the senders to the gather as they are. The precondition says every sender lies in
      [0, 50000); a sender that is not negative is left alone by the reference's normalisation
      (`SenderRange.sender_not_neg`, `RefValue.wrap_id`), so both gather at the same indices and both aggregates are
      the same term of the arguments. The gather and the accumulating scatter themselves are never opened.
  (2) The reference computes C · W + b in one matrix product. The kernel walks ten tiles of 5000 rows; at each it
      narrows the tile and the weights to a shorter float format, multiplies into an accumulator of zeros and adds
      the bias. On the extended reals a change of format is the identity and the zero accumulator adds nothing,
      a row of a product depends on that row of the left factor only, and the ten tiles fill the rows: the
      result array is C · W + b (`KernelValue.final`), which is what the reference computes (`RefValue.result_eq`).
  No law of arithmetic beyond 0 + s = s is used, so finiteness of the float inputs is not needed for the values.
  The three runs (termination, no fault, arguments unchanged) are the generated frames and the reference's
  generated run; the idealized kernel is the kernel's own text read on the extended reals, so there is nothing to
  preserve.
-/
import proofs.«411870_j58720792871766_2_alg».proof.Defs
import proofs.«411870_j58720792871766_2_alg».proof.Proof.Gen.Kernel
import proofs.«411870_j58720792871766_2_alg».proof.Proof.Gen.Kernel.Frame
import proofs.«411870_j58720792871766_2_alg».proof.Proof.Gen.KernelIdeal
import proofs.«411870_j58720792871766_2_alg».proof.Proof.Gen.KernelIdeal.Frame
import proofs.«411870_j58720792871766_2_alg».proof.Proof.Gen.KernelIdeal.Value
import proofs.«411870_j58720792871766_2_alg».proof.Proof.Gen.ReferenceIdeal
import proofs.«411870_j58720792871766_2_alg».proof.Proof.Gen.ReferenceIdeal.Run
import proofs.«411870_j58720792871766_2_alg».proof.Proof.Gen.ReferenceIdeal.Read
import proofs.«411870_j58720792871766_2_alg».proof.Proof.Gen.Pre_finite_inputs
import proofs.«411870_j58720792871766_2_alg».proof.Proof.SenderRange
import proofs.«411870_j58720792871766_2_alg».proof.Proof.RefValue
import proofs.«411870_j58720792871766_2_alg».proof.Proof.KernelValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both aggregates are one term of the arguments: the same gather, scale and accumulating scatter at the senders
    and receivers as they are. -/
theorem aggregate_eq (x0 : FVec Ideal Cert.KernelIdeal.S50000x128 .f32) (x1 : FVec Ideal Cert.KernelIdeal.S600000x1 .f32)
    (x4 : IVec Cert.KernelIdeal.S2x600000 32) :
    Cert.ReferenceIdeal.RefValue.aggregate x0 x1 x4 = Cert.KernelIdeal.RegionEntry.aggregate x0 x1 x4 := rfl

/-- From memories that agree on the arguments, with every sender in range, both programs end with C · W + b over
    the same aggregate C. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  have hs := Cert.ReferenceIdeal.RefValue.wrap_id
    (m ((c.tc : Thread Cert.KernelIdeal.nD Cert.KernelIdeal.τ).loc Cert.KernelIdeal.main_arg4))
    (fun e => Cert.SenderRange.sender_not_neg _ _ _ _ _ (hpre c) e)
  refine (Cert.ReferenceIdeal.Read.val_main_v19_eq _ _ _ _ _).trans ?_
  refine (Cert.ReferenceIdeal.RefValue.result_eq _ _ _ _ _ hs).trans ?_
  rw [aggregate_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
